-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩

class Facts : Prop where
  bcast_S_S8x4 : S_.BroadcastsInDim S8x4 (![] : Fin 0 → Fin S8x4.rank)
  reducesTo_S8x4_S_d0_1 : S8x4.ReducesTo [0, 1] S_
  h_S_ : 0 < S_.numel
  bcast_S_S8x2000000 : S_.BroadcastsInDim S8x2000000 (![] : Fin 0 → Fin S8x2000000.rank)
  reducesTo_S8x2000000_S_d0_1 : S8x2000000.ReducesTo [0, 1] S_

variable [Facts]

def fn {F : FTy → Type} [FloatOps F] (main_arg0 : FVec F S8x4 .f32) (main_arg1 : IVec S8x2x2000000 32) (main_arg2 : FVec F S8x2000000 .f32) : IVec S_ 1 :=
  let main_v0 : FVec F S8x4 .f32 := Host.absf main_arg0
  let main_cst : FVec F S_ .f32 := constant S_ .f32 0x7F800000#32
  let main_v1 : FVec F S8x4 .f32 := broadcastInDim S8x4 ![] bcast_S_S8x4 main_cst
  let main_v2 : IVec S8x4 1 := cmpf .olt main_v0 main_v1
  let main_c : IVec S_ 1 := constantI S_ 1 1#1
  let main_v3 : IVec S_ 1 := (fun x v => Host.reduce IntOp.andi x v reducesTo_S8x4_S_d0_1 h_S_) main_v2 main_c
  let main_v4 : FVec F S8x2000000 .f32 := Host.absf main_arg2
  let main_cst_0 : FVec F S_ .f32 := constant S_ .f32 0x7F800000#32
  let main_v5 : FVec F S8x2000000 .f32 := broadcastInDim S8x2000000 ![] bcast_S_S8x2000000 main_cst_0
  let main_v6 : IVec S8x2000000 1 := cmpf .olt main_v4 main_v5
  let main_c_1 : IVec S_ 1 := constantI S_ 1 1#1
  let main_v7 : IVec S_ 1 := (fun x v => Host.reduce IntOp.andi x v reducesTo_S8x2000000_S_d0_1 h_S_) main_v6 main_c_1
  let main_v8 : IVec S_ 1 := andi main_v3 main_v7
  main_v8
-- ==== Kernel.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩
abbrev S4 : Shape := ⟨1, ![4]⟩
abbrev S1x4 : Shape := ⟨2, ![1, 4]⟩
abbrev S4x8 : Shape := ⟨2, ![4, 8]⟩
abbrev S4x8x2000000 : Shape := ⟨3, ![4, 8, 2000000]⟩
abbrev S8x80000 : Shape := ⟨2, ![8, 80000]⟩
abbrev S4x8x80000 : Shape := ⟨3, ![4, 8, 80000]⟩
abbrev S4x8x1 : Shape := ⟨3, ![4, 8, 1]⟩
abbrev S1x8x80000 : Shape := ⟨3, ![1, 8, 80000]⟩
abbrev S4x16000000 : Shape := ⟨2, ![4, 16000000]⟩
abbrev S2x16000000 : Shape := ⟨2, ![2, 16000000]⟩
abbrev S1x2x400000 : Shape := ⟨3, ![1, 2, 400000]⟩
abbrev S2x400000 : Shape := ⟨2, ![2, 400000]⟩

abbrev nBuf : Space → Nat
  | .hbm => 21
  | .vmem => 9
  | .smem => 0
  | _ => 0

abbrev bufTy : (tb : Table) → Fin (tcTables nBuf tb) → BufTy
  | .hbm, ⟨0, _⟩ => ⟨S8x4, .f32⟩
  | .hbm, ⟨1, _⟩ => ⟨S8x2x2000000, .i32⟩
  | .hbm, ⟨2, _⟩ => ⟨S8x2000000, .f32⟩
  | .hbm, ⟨3, _⟩ => ⟨S_, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S1x4, .f32⟩
  | .hbm, ⟨9, _⟩ => ⟨S8x4, .f32⟩
  | .hbm, ⟨10, _⟩ => ⟨S8x4, .f32⟩
  | .hbm, ⟨11, _⟩ => ⟨S8x4, .f32⟩
  | .hbm, ⟨12, _⟩ => ⟨S_, .f32⟩
  | .hbm, ⟨13, _⟩ => ⟨S4, .f32⟩
  | .hbm, ⟨14, _⟩ => ⟨S1x4, .f32⟩
  | .hbm, ⟨15, _⟩ => ⟨S8x4, .f32⟩
  | .hbm, ⟨16, _⟩ => ⟨S8x4, .f32⟩
  | .hbm, ⟨17, _⟩ => ⟨S4x8, .f32⟩
  | .hbm, ⟨18, _⟩ => ⟨S4x8x2000000, .f32⟩
  | .hbm, ⟨19, _⟩ => ⟨S4x16000000, .f32⟩
  | .hbm, ⟨20, _⟩ => ⟨S2x16000000, .i32⟩
  | .local _ .vmem, ⟨0, _⟩ => ⟨S4x8, .f32⟩
  | .local _ .vmem, ⟨1, _⟩ => ⟨S8x80000, .f32⟩
  | .local _ .vmem, ⟨2, _⟩ => ⟨S8x80000, .f32⟩
  | .local _ .vmem, ⟨3, _⟩ => ⟨S4x8x80000, .f32⟩
  | .local _ .vmem, ⟨4, _⟩ => ⟨S4x8x80000, .f32⟩
  | .local _ .vmem, ⟨5, _⟩ => ⟨S1x2x400000, .i32⟩
  | .local _ .vmem, ⟨6, _⟩ => ⟨S1x2x400000, .i32⟩
  | .local _ .vmem, ⟨7, _⟩ => ⟨S2x400000, .i32⟩
  | .local _ .vmem, ⟨8, _⟩ => ⟨S2x400000, .i32⟩
  | _, _ => ⟨S8x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

abbrev stage1_0 : Fin 2 → Memref sig .tc .vmem S1x2x400000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x400000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  reducesTo_S8x4_S4_d0 : S8x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  transposes_S8x4_S4x8_1_0 : S8x4.Transposes [1, 0] S4x8
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S8x80000_S8x80000_0_0 : ∀ a, (![0, 0] : Fin 2 → Nat) a + S8x80000.size a ≤ S8x80000.size a
  h_S8x80000 : 0 < S8x80000.numel
  shapeCasts_S4x8_S4x8x1 : S4x8.ShapeCasts S4x8x1
  shapeCasts_S8x80000_S1x8x80000 : S8x80000.ShapeCasts S1x8x80000
  broadcasts_S4x8x1_S4x8x80000 : S4x8x1.Broadcasts S4x8x80000
  broadcasts_S1x8x80000_S4x8x80000 : S1x8x80000.Broadcasts S4x8x80000
  inb_S4x8x80000_S4x8x80000_0_0_0 : ∀ a, (![0, 0, 0] : Fin 3 → Nat) a + S4x8x80000.size a ≤ S4x8x80000.size a
  h_S4x8x80000 : 0 < S4x8x80000.numel
  shapeCasts_S4x8x2000000_S4x16000000 : S4x8x2000000.ShapeCasts S4x16000000
  inb_S1x2x400000_S1x2x400000_0_0_0 : ∀ a, (![0, 0, 0] : Fin 3 → Nat) a + S1x2x400000.size a ≤ S1x2x400000.size a
  h_S1x2x400000 : 0 < S1x2x400000.numel
  shapeCasts_S1x2x400000_S2x400000 : S1x2x400000.ShapeCasts S2x400000
  inb_S2x400000_S2x400000_0_0 : ∀ a, (![0, 0] : Fin 2 → Nat) a + S2x400000.size a ≤ S2x400000.size a
  h_S2x400000 : 0 < S2x400000.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8.size a ≤ S4x8.size a
  hwx0_0 : ∀ i : grid0.Coords, EltTy.bits .f32 = 32 ∨ (Rect.block (s := S4x8) S4x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80000.size a ≤ S8x2000000.size a
  hwx0_1 : ∀ i : grid0.Coords, EltTy.bits .f32 = 32 ∨ (Rect.block (s := S8x2000000) S8x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x80000.size a ≤ S4x8x2000000.size a
  hwx0_2 : ∀ i : grid0.Coords, EltTy.bits .f32 = 32 ∨ (Rect.block (s := S4x8x2000000) S4x8x80000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x400000.size a ≤ S8x2x2000000.size a
  hwx1_0 : ∀ i : grid1.Coords, EltTy.bits .i32 = 32 ∨ (Rect.block (s := S8x2x2000000) S1x2x400000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x400000.size a ≤ S2x16000000.size a
  hwx1_1 : ∀ i : grid1.Coords, EltTy.bits .i32 = 32 ∨ (Rect.block (s := S2x16000000) S2x400000.size (cc1_transform_1 i) (hinb1_1 i)).WholeWords (EltTy.packing .i32)

variable [Facts₀]

abbrev win0_0 : Pipeline.Window sig grid0 :=
  Pipeline.Window.ofSpec (Memref.whole main_v11) S4x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x8x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2x400000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2x400000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩
abbrev S4 : Shape := ⟨1, ![4]⟩
abbrev S1x4 : Shape := ⟨2, ![1, 4]⟩
abbrev S4x8 : Shape := ⟨2, ![4, 8]⟩
abbrev S4x8x1 : Shape := ⟨3, ![4, 8, 1]⟩
abbrev S1x8x2000000 : Shape := ⟨3, ![1, 8, 2000000]⟩
abbrev S4x8x2000000 : Shape := ⟨3, ![4, 8, 2000000]⟩
abbrev S4x16000000 : Shape := ⟨2, ![4, 16000000]⟩
abbrev S2x8x2000000 : Shape := ⟨3, ![2, 8, 2000000]⟩
abbrev S2x16000000 : Shape := ⟨2, ![2, 16000000]⟩

abbrev nBuf : Space → Nat
  | .hbm => 26
  | .vmem => 0
  | .smem => 0
  | _ => 0

abbrev bufTy : (tb : Table) → Fin (tcTables nBuf tb) → BufTy
  | .hbm, ⟨0, _⟩ => ⟨S8x4, .f32⟩
  | .hbm, ⟨1, _⟩ => ⟨S8x2x2000000, .i32⟩
  | .hbm, ⟨2, _⟩ => ⟨S8x2000000, .f32⟩
  | .hbm, ⟨3, _⟩ => ⟨S_, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S1x4, .f32⟩
  | .hbm, ⟨9, _⟩ => ⟨S8x4, .f32⟩
  | .hbm, ⟨10, _⟩ => ⟨S8x4, .f32⟩
  | .hbm, ⟨11, _⟩ => ⟨S8x4, .f32⟩
  | .hbm, ⟨12, _⟩ => ⟨S_, .f32⟩
  | .hbm, ⟨13, _⟩ => ⟨S4, .f32⟩
  | .hbm, ⟨14, _⟩ => ⟨S1x4, .f32⟩
  | .hbm, ⟨15, _⟩ => ⟨S8x4, .f32⟩
  | .hbm, ⟨16, _⟩ => ⟨S8x4, .f32⟩
  | .hbm, ⟨17, _⟩ => ⟨S4x8, .f32⟩
  | .hbm, ⟨18, _⟩ => ⟨S4x8x1, .f32⟩
  | .hbm, ⟨19, _⟩ => ⟨S1x8x2000000, .f32⟩
  | .hbm, ⟨20, _⟩ => ⟨S4x8x2000000, .f32⟩
  | .hbm, ⟨21, _⟩ => ⟨S4x8x2000000, .f32⟩
  | .hbm, ⟨22, _⟩ => ⟨S4x8x2000000, .f32⟩
  | .hbm, ⟨23, _⟩ => ⟨S4x16000000, .f32⟩
  | .hbm, ⟨24, _⟩ => ⟨S2x8x2000000, .i32⟩
  | .hbm, ⟨25, _⟩ => ⟨S2x16000000, .i32⟩
  | _, _ => ⟨S8x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  reducesTo_S8x4_S4_d0 : S8x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  transposes_S8x4_S4x8_1_0 : S8x4.Transposes [1, 0] S4x8
  bcast_S4x8_S4x8x1_0_1 : S4x8.BroadcastsInDim S4x8x1 (![0, 1] : Fin 2 → Fin S4x8x1.rank)
  bcast_S8x2000000_S1x8x2000000_1_2 : S8x2000000.BroadcastsInDim S1x8x2000000 (![1, 2] : Fin 2 → Fin S1x8x2000000.rank)
  bcast_S4x8x1_S4x8x2000000_0_1_2 : S4x8x1.BroadcastsInDim S4x8x2000000 (![0, 1, 2] : Fin 3 → Fin S4x8x2000000.rank)
  bcast_S1x8x2000000_S4x8x2000000_0_1_2 : S1x8x2000000.BroadcastsInDim S4x8x2000000 (![0, 1, 2] : Fin 3 → Fin S4x8x2000000.rank)
  shapeCasts_S4x8x2000000_S4x16000000 : S4x8x2000000.ShapeCasts S4x16000000
  transposes_S8x2x2000000_S2x8x2000000_1_0_2 : S8x2x2000000.Transposes [1, 0, 2] S2x8x2000000
  shapeCasts_S2x8x2000000_S2x16000000 : S2x8x2000000.ShapeCasts S2x16000000

variable [Facts₀]

class Facts : Prop extends Facts₀ where

variable [Facts]
-- ==== Proof.Spec.lean ====
/-
  What the two programs compute, as whole-array functions of the argument arrays, index by index.

  * `scaled w ev` : the rank-3 array `out[c, r, e] = w[c, r] · ev[r, e]` — every edge value of relation `r`
    scaled by the weight channel `c` gives relation `r`.
  * `concatRel x` : the relation-major concatenation `out[a, r·E + e] = x[r, a, e]` with `E = 2000000`:
    endpoint row `a` of every relation's edge list, the relations laid one after the other.

  Both are stated for any float instance: neither uses a law of the arithmetic, only which entries meet.
-/
import Idealize.ShloMosaic.PureOps
import Idealize.ShloMosaic.Lib.ValueIdx

noncomputable section

namespace Cert.Spec

open Idealize.ShloMosaic Idealize.ShloMosaic.ValueIdx

variable {F : FTy → Type} [FloatOps F]

/-- `out[c, r, e] = w[c, r] · ev[r, e]`. -/
def scaled (w : Vec F ⟨2, ![4, 8]⟩ .f32) (ev : Vec F ⟨2, ![8, 2000000]⟩ .f32) : Vec F ⟨3, ![4, 8, 2000000]⟩ .f32 :=
  fun j => FloatOps.mulf
    (w (ix2 (n0 := 4) (n1 := 8) ⟨(j 0).val, (j 0).isLt⟩ ⟨(j 1).val, (j 1).isLt⟩))
    (ev (ix2 (n0 := 8) (n1 := 2000000) ⟨(j 1).val, (j 1).isLt⟩ ⟨(j 2).val, (j 2).isLt⟩))

/-- Column `n < 16000000` of the concatenation lies in relation `n / 2000000`. -/
theorem rel_lt {n : Nat} (h : n < 16000000) : n / 2000000 < 8 := by omega

/-- `out[a, r·2000000 + e] = x[r, a, e]`. -/
def concatRel (x : Vec F ⟨3, ![8, 2, 2000000]⟩ .i32) : Vec F ⟨2, ![2, 16000000]⟩ .i32 :=
  fun j => x (ix3 (n0 := 8) (n1 := 2) (n2 := 2000000)
    ⟨(j 1).val / 2000000, rel_lt (j 1).isLt⟩ ⟨(j 0).val, (j 0).isLt⟩
    ⟨(j 1).val % 2000000, Nat.mod_lt _ (by omega)⟩)

end Cert.Spec

end
-- ==== Proof.ValsRegion.lean ====
/-
  The first region: what its output array holds after the last grid point.

  The grid has 25 points; point `t` sees the whole 4×8 weight table and columns `[80000·t, 80000·(t+1))` of the
  8×2000000 edge values, and writes the block of the 4×8×2000000 output over those same columns. Its body stores
  `out[c, r, e'] = w[c, r] · ev[r, e']` for every position of the block, so block `t` of the output is block `t` of
  the whole-array function `Spec.scaled`, and the 25 column ranges cover every column: the output array ends
  equal to `Spec.scaled` of the two arrays the region was entered with.
-/
import proofs.«102503_j65472481460783_1_alg».proof.Proof.Gen.KernelIdeal.Frame
import proofs.«102503_j65472481460783_1_alg».proof.Proof.Spec
import Idealize.ShloMosaic.Lib.Pipeline.Value
import Idealize.ShloMosaic.Lib.ValueIdx

set_option maxRecDepth 16384

noncomputable section

namespace Cert.KernelIdeal.ValsRegion

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at a position of the block: the weight at the position's first two coordinates
    times the edge value at its last two. -/
theorem pay_apply (x0 : Vec F S4x8 .f32) (x1 : Vec F S8x80000 .f32) (j : S4x8x80000.Idx) :
    k0_pay1 x0 x1 j = FloatOps.mulf
      (x0 (ix2 (n0 := 4) (n1 := 8) ⟨(j 0).val, (j 0).isLt⟩ ⟨(j 1).val, (j 1).isLt⟩))
      (x1 (ix2 (n0 := 8) (n1 := 80000) ⟨(j 1).val, (j 1).isLt⟩ ⟨(j 2).val, (j 2).isLt⟩)) := by
  unfold k0_pay1
  show FloatOps.mulf
      (broadcastTo S4x8x80000 (shapeCast S4x8x1 (shapeCast S4x8 x0 shapeCasts_S4x8_S4x8) shapeCasts_S4x8_S4x8x1) broadcasts_S4x8x1_S4x8x80000 j)
      (broadcastTo S4x8x80000 (shapeCast S1x8x80000 x1 shapeCasts_S8x80000_S1x8x80000) broadcasts_S1x8x80000_S4x8x80000 j) = _
  have hj0 : (j 0).val < 4 := (j 0).isLt
  have hj1 : (j 1).val < 8 := (j 1).isLt
  have hj2 : (j 2).val < 80000 := (j 2).isLt
  rw [broadcastTo_apply _ broadcasts_S4x8x1_S4x8x80000 j
      (ix3 (n0 := 4) (n1 := 8) (n2 := 1) ⟨(j 0).val, hj0⟩ ⟨(j 1).val, hj1⟩ ⟨0, Nat.one_pos⟩) (fun a => match a with
      | ⟨0, _⟩ => by show (j 0).val = if (4 : Nat) = 1 then 0 else (j 0).val; rw [if_neg (by decide)]
      | ⟨1, _⟩ => by show (j 1).val = if (8 : Nat) = 1 then 0 else (j 1).val; rw [if_neg (by decide)]
      | ⟨2, _⟩ => by show 0 = if (1 : Nat) = 1 then 0 else (j 2).val; rw [if_pos rfl]),
    broadcastTo_apply _ broadcasts_S1x8x80000_S4x8x80000 j
      (ix3 (n0 := 1) (n1 := 8) (n2 := 80000) ⟨0, Nat.one_pos⟩ ⟨(j 1).val, hj1⟩ ⟨(j 2).val, hj2⟩) (fun a => match a with
      | ⟨0, _⟩ => by show 0 = if (1 : Nat) = 1 then 0 else (j 0).val; rw [if_pos rfl]
      | ⟨1, _⟩ => by show (j 1).val = if (8 : Nat) = 1 then 0 else (j 1).val; rw [if_neg (by decide)]
      | ⟨2, _⟩ => by show (j 2).val = if (80000 : Nat) = 1 then 0 else (j 2).val; rw [if_neg (by decide)]),
    shapeCast_apply _ shapeCasts_S4x8_S4x8x1 _ (ix2 (n0 := 4) (n1 := 8) ⟨(j 0).val, hj0⟩ ⟨(j 1).val, hj1⟩)
      (by rw [Shape.rowMajor_val_two, Shape.rowMajor_val_three]; show (j 0).val * 8 + (j 1).val = ((j 0).val * 8 + (j 1).val) * 1 + 0; omega),
    shapeCast_apply _ shapeCasts_S8x80000_S1x8x80000 _ (ix2 (n0 := 8) (n1 := 80000) ⟨(j 1).val, hj1⟩ ⟨(j 2).val, hj2⟩)
      (by rw [Shape.rowMajor_val_two, Shape.rowMajor_val_three]; show (j 1).val * 80000 + (j 2).val = (0 * 8 + (j 1).val) * 80000 + (j 2).val; omega),
    shapeCast_self]

/-- The printed index maps over the 25 grid points: the weight table's block is always block (0, 0); the edge
    values' block and the output's block move together along the last axis, one step per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = t.val :=
  (by decide +kernel : ∀ t : Fin grid0.N, _)

section
variable (V : (c : Dev nD) → (b : Ref sig .tc) → Buf (Elt F) ((c : Thread nD τ).loc b))

/-- The weight table's block at any point is the whole table. -/
theorem wblk (c : Dev nD) (t : Fin cfg0.N) (p : Fin 4) (q : Fin 8) :
    (iblk0 V c 0 t : Vec F S4x8 .f32) (ix2 p q) = (V c main_v11 : Vec F S4x8 .f32) (ix2 p q) := by
  obtain ⟨e0, e1, -⟩ := idx_facts t
  show V c main_v11 (((cfg0.win 0).blk t).view.emb (ix2 p q)) = V c main_v11 (ix2 p q)
  refine congrArg (V c main_v11) (funext fun a => Fin.ext ?_)
  match a with
  | ⟨0, _⟩ => show win0_0.index t (0 : Fin 2) * 4 + 1 * p.val = p.val; omega
  | ⟨1, _⟩ => show win0_0.index t (1 : Fin 2) * 8 + 1 * q.val = q.val; omega

/-- The edge values' block at point `t` is columns `80000·t + ·` of the array. -/
theorem evblk (c : Dev nD) (t : Fin cfg0.N) (q : Fin 8) (s : Fin 80000) (hs : t.val * 80000 + s.val < 2000000) :
    (iblk0 V c 1 t : Vec F S8x80000 .f32) (ix2 q s)
      = (V c main_arg2 : Vec F S8x2000000 .f32) (ix2 (n0 := 8) (n1 := 2000000) q ⟨t.val * 80000 + s.val, hs⟩) := by
  obtain ⟨-, -, e2, e3, -⟩ := idx_facts t
  show V c main_arg2 (((cfg0.win 1).blk t).view.emb (ix2 q s)) = V c main_arg2 _
  refine congrArg (V c main_arg2) (funext fun a => Fin.ext ?_)
  match a with
  | ⟨0, _⟩ => show win0_1.index t (0 : Fin 2) * 8 + 1 * q.val = q.val; omega
  | ⟨1, _⟩ => show win0_1.index t (1 : Fin 2) * 80000 + 1 * s.val = t.val * 80000 + s.val; omega

/-- What point `t` writes back is block `t` of `Spec.scaled` of the two arrays the region was entered with. -/
theorem flushed_eq (c : Dev nD) (t : Fin cfg0.N) :
    (dat0 V c).flushed 2 t
      = ((cfg0.win 2).blk t).view.read (Elt F) (Spec.scaled (V c main_v11) (V c main_arg2)) := by
  show (cfg0.win 2).cut (grid0.coords t) ((dat0 V c).after 2 t) = _
  rw [after0_2]
  unfold out0_2
  rw [View.canon_unit_zero zero3]
  simp only [View.ld_unit_zero (S := S4x8) zero2, View.ld_unit_zero (S := S8x80000) zero2]
  obtain ⟨-, -, -, -, e4, e5, e6⟩ := idx_facts t
  have ht : t.val < 25 := t.isLt
  funext j
  have hj0 : (j 0).val < 4 := (j 0).isLt
  have hj1 : (j 1).val < 8 := (j 1).isLt
  have hj2 : (j 2).val < 80000 := (j 2).isLt
  have hs : t.val * 80000 + (j 2).val < 2000000 := by omega
  refine (pay_apply (iblk0 V c 0 t) (iblk0 V c 1 t) j).trans ?_
  refine (congrArg₂ FloatOps.mulf (wblk V c t ⟨(j 0).val, hj0⟩ ⟨(j 1).val, hj1⟩)
    (evblk V c t ⟨(j 1).val, hj1⟩ ⟨(j 2).val, hj2⟩ hs)).trans ?_
  show _ = Spec.scaled (V c main_v11) (V c main_arg2) (((cfg0.win 2).blk t).view.emb j)
  unfold Spec.scaled
  refine congrArg₂ FloatOps.mulf (congrArg (V c main_v11) (funext fun a => Fin.ext ?_))
    (congrArg (V c main_arg2) (funext fun a => Fin.ext ?_))
  · match a with
    | ⟨0, _⟩ => show (j 0).val = win0_2.index t (0 : Fin 3) * 4 + 1 * (j 0).val; omega
    | ⟨1, _⟩ => show (j 1).val = win0_2.index t (1 : Fin 3) * 8 + 1 * (j 1).val; omega
  · match a with
    | ⟨0, _⟩ => show (j 1).val = win0_2.index t (1 : Fin 3) * 8 + 1 * (j 1).val; omega
    | ⟨1, _⟩ => show t.val * 80000 + (j 2).val = win0_2.index t (2 : Fin 3) * 80000 + 1 * (j 2).val; omega

end

/-- An index of the output array is in point `t`'s block iff each coordinate is in the block's range. -/
theorem mem_blk (t : Fin cfg0.N) (i : S4x8x2000000.Idx) :
    i ∈ ((cfg0.win 2).blk t).view.set ↔ ∀ a : Fin 3, win0_2.index t a * S4x8x80000.size a ≤ (i a).val
      ∧ (i a).val < win0_2.index t a * S4x8x80000.size a + S4x8x80000.size a := by
  show i ∈ ((View.whole main_v12).slice (win0_2.rect t)).set ↔ _
  rw [View.set_slice_whole, Rect.mem_set_unit]
  exact Iff.rfl

/-- Every index of the output lies in the block of the point its last coordinate's column range names. -/
theorem cover (i : S4x8x2000000.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 2000000 := (i 2).isLt
  have hq : (i 2).val / 80000 < 25 := by omega
  obtain ⟨-, -, -, -, e4, e5, e6⟩ := idx_facts ⟨(i 2).val / 80000, hq⟩
  have e6' : win0_2.index ⟨(i 2).val / 80000, hq⟩ (2 : Fin 3) = (i 2).val / 80000 := e6
  refine ⟨⟨(i 2).val / 80000, hq⟩, flush0_2 _, ?_⟩
  rw [mem_blk]
  intro a
  match a with
  | ⟨0, _⟩ =>
    show win0_2.index ⟨(i 2).val / 80000, hq⟩ (0 : Fin 3) * 4 ≤ (i 0).val
      ∧ (i 0).val < win0_2.index ⟨(i 2).val / 80000, hq⟩ (0 : Fin 3) * 4 + 4
    omega
  | ⟨1, _⟩ =>
    show win0_2.index ⟨(i 2).val / 80000, hq⟩ (1 : Fin 3) * 8 ≤ (i 1).val
      ∧ (i 1).val < win0_2.index ⟨(i 2).val / 80000, hq⟩ (1 : Fin 3) * 8 + 8
    omega
  | ⟨2, _⟩ =>
    show win0_2.index ⟨(i 2).val / 80000, hq⟩ (2 : Fin 3) * 80000 ≤ (i 2).val
      ∧ (i 2).val < win0_2.index ⟨(i 2).val / 80000, hq⟩ (2 : Fin 3) * 80000 + 80000
    omega

/-- The output array after the region: `out[c, r, e] = w[c, r] · ev[r, e]` of the arrays the region was entered with. -/
theorem final (V : (c : Dev nD) → (b : Ref sig .tc) → Buf (Elt F) ((c : Thread nD τ).loc b)) (c : Dev nD) :
    (dat0 V c).arrAt 2 cfg0.N = Spec.scaled (V c main_v11) (V c main_arg2) :=
  (dat0 V c).arrAt_eq_of_cover 2 _ (fun t _ => flushed_eq V c t) cover

end Cert.KernelIdeal.ValsRegion

end
-- ==== Proof.IdxRegion.lean ====
/-
  The second region: what its output array holds after the last grid point.

  The grid is 8 × 5, forty points in row-major order: point `t` is relation `t / 5`, column tile `t % 5`. It sees
  the 1×2×400000 block of the 8×2×2000000 index array at relation `t / 5`, columns `[400000·(t%5), 400000·(t%5+1))`,
  drops the unit axis, and writes the 2×400000 block of the 2×16000000 output at columns `[400000·t, 400000·(t+1))`.
  Since `400000·t + s = 2000000·(t/5) + 400000·(t%5) + s`, that block is block `t` of the relation-major
  concatenation `Spec.concatRel`, and the forty column ranges cover every column.
-/
import proofs.«102503_j65472481460783_1_alg».proof.Proof.Gen.KernelIdeal.Frame
import proofs.«102503_j65472481460783_1_alg».proof.Proof.Spec
import Idealize.ShloMosaic.Lib.Pipeline.Value
import Idealize.ShloMosaic.Lib.ValueIdx

set_option maxRecDepth 16384

noncomputable section

namespace Cert.KernelIdeal.IdxRegion

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at a position of the block: the loaded block with its unit axis dropped. -/
theorem pay_apply (x0 : Vec F S1x2x400000 .i32) (j : S2x400000.Idx) :
    k1_pay1 x0 j = x0 (ix3 (n0 := 1) (n1 := 2) (n2 := 400000) ⟨0, Nat.one_pos⟩ ⟨(j 0).val, (j 0).isLt⟩ ⟨(j 1).val, (j 1).isLt⟩) := by
  unfold k1_pay1
  have hj0 : (j 0).val < 2 := (j 0).isLt
  have hj1 : (j 1).val < 400000 := (j 1).isLt
  exact shapeCast_apply x0 shapeCasts_S1x2x400000_S2x400000 j _
    (by rw [Shape.rowMajor_val_two, Shape.rowMajor_val_three]; show (0 * 2 + (j 0).val) * 400000 + (j 1).val = (j 0).val * 400000 + (j 1).val; omega)

/-- The printed index maps over the forty grid points. -/
theorem idx_facts : ∀ t : Fin cfg1.N,
    win1_0.index t (0 : Fin 3) = t.val / 5 ∧ win1_0.index t (1 : Fin 3) = 0 ∧ win1_0.index t (2 : Fin 3) = t.val % 5
    ∧ win1_1.index t (0 : Fin 2) = 0 ∧ win1_1.index t (1 : Fin 2) = t.val :=
  (by decide +kernel : ∀ t : Fin grid1.N, _)

section
variable (V : (c : Dev nD) → (b : Ref sig .tc) → Buf (Elt F) ((c : Thread nD τ).loc b))

/-- The index array's block at point `t`: relation `t / 5`, columns `400000·(t % 5) + ·`. -/
theorem inblk (c : Dev nD) (t : Fin cfg1.N) (a : Fin 2) (s : Fin 400000)
    (hr : t.val / 5 < 8) (hs : t.val % 5 * 400000 + s.val < 2000000) :
    (iblk1 V c 0 t : Vec F S1x2x400000 .i32) (ix3 (n0 := 1) (n1 := 2) (n2 := 400000) ⟨0, Nat.one_pos⟩ a s)
      = (V c main_arg1 : Vec F S8x2x2000000 .i32)
          (ix3 (n0 := 8) (n1 := 2) (n2 := 2000000) ⟨t.val / 5, hr⟩ a ⟨t.val % 5 * 400000 + s.val, hs⟩) := by
  obtain ⟨e0, e1, e2, -⟩ := idx_facts t
  show V c main_arg1 (((cfg1.win 0).blk t).view.emb (ix3 (n0 := 1) (n1 := 2) (n2 := 400000) ⟨0, Nat.one_pos⟩ a s)) = V c main_arg1 _
  refine congrArg (V c main_arg1) (funext fun b => Fin.ext ?_)
  match b with
  | ⟨0, _⟩ => show win1_0.index t (0 : Fin 3) * 1 + 1 * 0 = t.val / 5; omega
  | ⟨1, _⟩ => show win1_0.index t (1 : Fin 3) * 2 + 1 * a.val = a.val; omega
  | ⟨2, _⟩ => show win1_0.index t (2 : Fin 3) * 400000 + 1 * s.val = t.val % 5 * 400000 + s.val; omega

/-- What point `t` writes back is block `t` of the relation-major concatenation of the array the region was entered with. -/
theorem flushed_eq (c : Dev nD) (t : Fin cfg1.N) :
    (dat1 V c).flushed 1 t
      = ((cfg1.win 1).blk t).view.read (Elt F) (Spec.concatRel (F := F) (V c main_arg1)) := by
  show (cfg1.win 1).cut (grid1.coords t) ((dat1 V c).after 1 t) = _
  rw [after1_1]
  unfold out1_1
  rw [View.canon_unit_zero zero2]
  simp only [View.ld_unit_zero (S := S1x2x400000) zero3]
  obtain ⟨-, -, -, e3, e4⟩ := idx_facts t
  have ht : t.val < 40 := t.isLt
  funext j
  have hj0 : (j 0).val < 2 := (j 0).isLt
  have hj1 : (j 1).val < 400000 := (j 1).isLt
  have hr : t.val / 5 < 8 := by omega
  have hs : t.val % 5 * 400000 + (j 1).val < 2000000 := by omega
  refine (pay_apply (iblk1 V c 0 t) j).trans ?_
  refine (inblk V c t ⟨(j 0).val, hj0⟩ ⟨(j 1).val, hj1⟩ hr hs).trans ?_
  show _ = Spec.concatRel (F := F) (V c main_arg1) (((cfg1.win 1).blk t).view.emb j)
  unfold Spec.concatRel
  refine congrArg (V c main_arg1) (funext fun b => Fin.ext ?_)
  have hemb0 : ((((cfg1.win 1).blk t).view.emb j) 0).val = win1_1.index t (0 : Fin 2) * 2 + 1 * (j 0).val := rfl
  have hemb1 : ((((cfg1.win 1).blk t).view.emb j) 1).val = win1_1.index t (1 : Fin 2) * 400000 + 1 * (j 1).val := rfl
  match b with
  | ⟨0, _⟩ => show t.val / 5 = ((((cfg1.win 1).blk t).view.emb j) 1).val / 2000000; rw [hemb1]; omega
  | ⟨1, _⟩ => show (j 0).val = ((((cfg1.win 1).blk t).view.emb j) 0).val; rw [hemb0]; omega
  | ⟨2, _⟩ => show t.val % 5 * 400000 + (j 1).val = ((((cfg1.win 1).blk t).view.emb j) 1).val % 2000000; rw [hemb1]; omega

end

/-- An index of the output array is in point `t`'s block iff each coordinate is in the block's range. -/
theorem mem_blk (t : Fin cfg1.N) (i : S2x16000000.Idx) :
    i ∈ ((cfg1.win 1).blk t).view.set ↔ ∀ a : Fin 2, win1_1.index t a * S2x400000.size a ≤ (i a).val
      ∧ (i a).val < win1_1.index t a * S2x400000.size a + S2x400000.size a := by
  show i ∈ ((View.whole main_v14).slice (win1_1.rect t)).set ↔ _
  rw [View.set_slice_whole, Rect.mem_set_unit]
  exact Iff.rfl

/-- Every index of the output lies in the block of the point its column's range names. -/
theorem cover (i : S2x16000000.Idx) :
    ∃ t : Fin cfg1.N, (cfg1.win 1).flush t = true ∧ i ∈ ((cfg1.win 1).blk t).view.set := by
  have h0 : (i 0).val < 2 := (i 0).isLt
  have h1 : (i 1).val < 16000000 := (i 1).isLt
  have hq : (i 1).val / 400000 < 40 := by omega
  obtain ⟨-, -, -, e3, e4⟩ := idx_facts ⟨(i 1).val / 400000, hq⟩
  have e4' : win1_1.index ⟨(i 1).val / 400000, hq⟩ (1 : Fin 2) = (i 1).val / 400000 := e4
  refine ⟨⟨(i 1).val / 400000, hq⟩, flush1_1 _, ?_⟩
  rw [mem_blk]
  intro a
  match a with
  | ⟨0, _⟩ =>
    show win1_1.index ⟨(i 1).val / 400000, hq⟩ (0 : Fin 2) * 2 ≤ (i 0).val
      ∧ (i 0).val < win1_1.index ⟨(i 1).val / 400000, hq⟩ (0 : Fin 2) * 2 + 2
    omega
  | ⟨1, _⟩ =>
    show win1_1.index ⟨(i 1).val / 400000, hq⟩ (1 : Fin 2) * 400000 ≤ (i 1).val
      ∧ (i 1).val < win1_1.index ⟨(i 1).val / 400000, hq⟩ (1 : Fin 2) * 400000 + 400000
    omega

/-- The output array after the region: `out[a, 2000000·r + e] = x[r, a, e]` of the array the region was entered with. -/
theorem final (V : (c : Dev nD) → (b : Ref sig .tc) → Buf (Elt F) ((c : Thread nD τ).loc b)) (c : Dev nD) :
    (dat1 V c).arrAt 1 cfg1.N = Spec.concatRel (F := F) (V c main_arg1) :=
  (dat1 V c).arrAt_eq_of_cover 1 _ (fun t _ => flushed_eq V c t) cover

end Cert.KernelIdeal.IdxRegion

end
-- ==== Proof.Boundary.lean ====
/-
  The two result buffers at the end of the kernel's program, as functions of the argument arrays.

  The program is: a host stretch computing the weight table (the softmax of the 8×4 weights over the relation
  axis, transposed to 4×8), the first region, a host reshape of its 4×8×2000000 output to 4×16000000, the second
  region. Folding the buffer contents through those four segments:
    * the first region is entered with the weight table at `weights arg0` and the edge values as launched, so it
      leaves `Spec.scaled (weights arg0) arg2`, which the reshape flattens;
    * the second region is entered with the index array as launched and leaves its relation-major concatenation;
      it does not touch the flattened product.
-/
import proofs.«102503_j65472481460783_1_alg».proof.Proof.Gen.KernelIdeal.Frame
import proofs.«102503_j65472481460783_1_alg».proof.Proof.ValsRegion
import proofs.«102503_j65472481460783_1_alg».proof.Proof.IdxRegion
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]

/-- The weights with each column's maximum over the eight relations subtracted. -/
def shifted (x : Vec F S8x4 .f32) : Vec F S8x4 .f32 :=
  subf x (broadcastInDim S8x4 ![0, 1] bcast_S1x4_S8x4_0_1 (broadcastInDim S1x4 ![1] bcast_S4_S1x4_1
    (maximumf (broadcastInDim S4 ![] bcast_S_S4 (constant S_ .f32 0xFF800000#32))
      (Host.reduce FloatOps.maximumf x (constant S_ .f32 0xFF800000#32) reducesTo_S8x4_S4_d0 h_S_))))

/-- The weight table: the softmax of the 8×4 weights over the relation axis, transposed to 4×8. -/
def weights (x : Vec F S8x4 .f32) : Vec F S4x8 .f32 :=
  transpose S4x8 [1, 0]
    (Host.divf (Host.exp (shifted x))
      (broadcastInDim S8x4 ![0, 1] bcast_S1x4_S8x4_0_1 (broadcastInDim S1x4 ![1] bcast_S4_S1x4_1
        (Host.reduceAdd (Host.exp (shifted x)) (constant S_ .f32 0x00000000#32) reducesTo_S8x4_S4_d0 h_S_))))
    transposes_S8x4_S4x8_1_0

variable (m : (ℓ : Loc nD τ sig) → Buf (Elt F) ℓ) (ρ : Dev nD → PrngReg)

/-- The first region is entered with the weight table computed from the launched weights. -/
theorem entry_weights (c : Dev nD) : V1 m ρ c main_v11 = weights (m ((c : Thread nD τ).loc main_arg0)) := by
  show StableHlo.after hostOps0 (W0 m ρ c) (Proc.devRef .tc main_v11) = _
  after_results
  rfl

/-- The first region is entered with the edge values as launched. -/
theorem entry_ev (c : Dev nD) : V1 m ρ c main_arg2 = m ((c : Thread nD τ).loc main_arg2) := by
  show StableHlo.after hostOps0 (W0 m ρ c) (Proc.devRef .tc main_arg2) = _
  after_results

/-- The first region's output after it. -/
theorem after_vals (c : Dev nD) : W2 m ρ c (Proc.devRef .tc main_v12)
    = Spec.scaled (weights (m ((c : Thread nD τ).loc main_arg0))) (m ((c : Thread nD τ).loc main_arg2)) :=
  (W2_arr m ρ c 2).trans ((ValsRegion.final (V1 m ρ) c).trans (by rw [entry_weights, entry_ev]))

/-- The flattened product at the end of the program. -/
theorem result_vals (c : Dev nD) : W4 m ρ c (Proc.devRef .tc main_v13)
    = shapeCast S4x16000000 (Spec.scaled (weights (m ((c : Thread nD τ).loc main_arg0))) (m ((c : Thread nD τ).loc main_arg2)))
        shapeCasts_S4x8x2000000_S4x16000000 :=
  calc W4 m ρ c (Proc.devRef .tc main_v13)
    _ = W3 m ρ c (Proc.devRef .tc main_v13) := W4_of_ne m ρ c main_v13 (by decide)
    _ = shapeCast S4x16000000 (W2 m ρ c (Proc.devRef .tc main_v12)) shapeCasts_S4x8x2000000_S4x16000000 := by
          show StableHlo.after hostOps1 (W2 m ρ c) (Proc.devRef .tc main_v13) = _
          after_results
          rfl
    _ = _ := by rw [after_vals]

/-- The second region is entered with the index array as launched. -/
theorem entry_idx (c : Dev nD) : V3 m ρ c main_arg1 = m ((c : Thread nD τ).loc main_arg1) :=
  ((W4_arr m ρ c 0).trans (((dat1 (V3 m ρ) c).arrAt_in 0 rfl _).trans (A_eq1 (V3 m ρ) c 0))).symm.trans (W4_main_arg1 m ρ c)

/-- The concatenated index array at the end of the program. -/
theorem result_idx (c : Dev nD) : W4 m ρ c (Proc.devRef .tc main_v14)
    = Spec.concatRel (F := F) (m ((c : Thread nD τ).loc main_arg1)) :=
  (W4_arr m ρ c 1).trans ((IdxRegion.final (V3 m ρ) c).trans (by rw [entry_idx]))

end Cert.KernelIdeal.Boundary

end
-- ==== Proof.RefSide.lean ====
/-
  The reference's two results as the same whole-array functions.

  The reference broadcasts the 4×8 weight table along a new last axis and the 8×2000000 edge values along a new
  first axis and multiplies, which index by index is `Spec.scaled`; it flattens the last two axes. For the
  indices it swaps the first two axes of the 8×2×2000000 array and flattens the last two: entry
  `[a, n]` of the result is entry `[n / 2000000, a, n % 2000000]` of the argument, which is `Spec.concatRel`.
-/
import proofs.«102503_j65472481460783_1_alg».proof.Proof.Gen.ReferenceIdeal.Run
import proofs.«102503_j65472481460783_1_alg».proof.Proof.Gen.ReferenceIdeal.Read
import proofs.«102503_j65472481460783_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable {F : FTy → Type} [FloatOps F]

/-- The broadcast product is the scaled array of the weight table and the edge values. -/
theorem prod_eq (x0 : Vec F S8x4 .f32) (x2 : Vec F S8x2000000 .f32) :
    val_main_v16 (F := F) x0 x2 = Spec.scaled (val_main_v11 (F := F) x0) x2 := by
  funext i
  rw [val_main_v16_apply, val_main_v14_apply, val_main_v12_apply, val_main_v15_apply, val_main_v13_apply]
  unfold Spec.scaled
  refine congrArg₂ FloatOps.mulf (congrArg (val_main_v11 (F := F) x0) (funext fun a => Fin.ext ?_))
    (congrArg x2 (funext fun a => Fin.ext ?_))
  · match a with
    | ⟨0, _⟩ => rfl
    | ⟨1, _⟩ => rfl
  · match a with
    | ⟨0, _⟩ => rfl
    | ⟨1, _⟩ => rfl

/-- The reference's float result. -/
theorem vals_eq (x0 : Vec F S8x4 .f32) (x2 : Vec F S8x2000000 .f32) :
    val_main_v17 (F := F) x0 x2
      = shapeCast S4x16000000 (Spec.scaled (val_main_v11 (F := F) x0) x2) shapeCasts_S4x8x2000000_S4x16000000 := by
  unfold val_main_v17
  rw [prod_eq]

/-- The reference's index result is the relation-major concatenation. -/
theorem idx_eq (x1 : Vec F S8x2x2000000 .i32) : val_main_v19 (F := F) x1 = Spec.concatRel (F := F) x1 := by
  funext i
  rw [val_main_v19_apply, val_main_v18_apply]
  unfold Spec.concatRel
  have h0 : (i 0).val < 2 := (i 0).isLt
  have h1 : (i 1).val < 16000000 := (i 1).isLt
  refine congrArg x1 (funext fun a => Fin.ext ?_)
  match a with
  | ⟨0, _⟩ => show ((i 0).val * 16000000 + (i 1).val) / 2000000 % 8 = (i 1).val / 2000000; omega
  | ⟨1, _⟩ => show ((i 0).val * 16000000 + (i 1).val) / 16000000 = (i 0).val; omega
  | ⟨2, _⟩ => show ((i 0).val * 16000000 + (i 1).val) % 2000000 = (i 1).val % 2000000; omega

end Cert.ReferenceIdeal.RefValue

end
-- ==== Proof.lean ====
/-
  The kernel computes, from an 8×4 weight array `w`, an 8×2×2000000 index array `x` and an 8×2000000 array of
  edge values `ev`,

    vals[c, 2000000·r + e] = softmax₀(w)[r, c] · ev[r, e]        (4 × 16000000)
    idx[a, 2000000·r + e]  = x[r, a, e]                          (2 × 16000000)

  where `softmax₀` is the softmax over the relation axis. The reference computes the same two arrays with
  broadcasts, one product, one transpose and two reshapes. Both programs compute the weight table by the same host
  operations on the same argument, so it is carried as one function of `w` and never opened; the product pairs the
  same two entries on both sides, and the index result moves entries without arithmetic. No law of the extended
  reals is used, so the finiteness of the inputs is never opened either.

  Kernel side: the two regions' output arrays are block by block the whole-array functions `Spec.scaled` and
  `Spec.concatRel` (ValsRegion, IdxRegion), folded through the program's segment boundaries (Boundary) and read at
  the end of the run (KernelRun). Reference side: its run's two result terms are the same functions (RefSide).
-/
import proofs.«102503_j65472481460783_1_alg».proof.Defs
import proofs.«102503_j65472481460783_1_alg».proof.Proof.Gen.Kernel
import proofs.«102503_j65472481460783_1_alg».proof.Proof.Gen.Kernel.Skeleton
import proofs.«102503_j65472481460783_1_alg».proof.Proof.Gen.Kernel.Launch
import proofs.«102503_j65472481460783_1_alg».proof.Proof.Gen.Kernel.Points
import proofs.«102503_j65472481460783_1_alg».proof.Proof.Gen.Kernel.Frame
import proofs.«102503_j65472481460783_1_alg».proof.Proof.Gen.KernelIdeal
import proofs.«102503_j65472481460783_1_alg».proof.Proof.Gen.KernelIdeal.Skeleton
import proofs.«102503_j65472481460783_1_alg».proof.Proof.Gen.KernelIdeal.Launch
import proofs.«102503_j65472481460783_1_alg».proof.Proof.Gen.KernelIdeal.Points
import proofs.«102503_j65472481460783_1_alg».proof.Proof.Gen.KernelIdeal.Frame
import proofs.«102503_j65472481460783_1_alg».proof.Proof.Gen.ReferenceIdeal
import proofs.«102503_j65472481460783_1_alg».proof.Proof.Gen.ReferenceIdeal.Run
import proofs.«102503_j65472481460783_1_alg».proof.Proof.Gen.ReferenceIdeal.Read
import proofs.«102503_j65472481460783_1_alg».proof.Proof.Gen.Pre_finite_inputs
import proofs.«102503_j65472481460783_1_alg».proof.Proof.KernelRun
import proofs.«102503_j65472481460783_1_alg».proof.Proof.Boundary
import proofs.«102503_j65472481460783_1_alg».proof.Proof.RefSide
import Idealize.ShloMosaic.Adequacy
import Idealize.ShloMosaic.Init

noncomputable section

namespace Cert.Proof

open Idealize.ShloMosaic Idealize.ShloMosaic.TcCoe Idealize.SL.Sem

/-- The kernel's weight table and the reference's are the same host operations of the weights. -/
theorem weights_eq (x : Vec Ideal ⟨2, ![8, 4]⟩ .f32) :
    Cert.KernelIdeal.Boundary.weights (F := Ideal) x = Cert.ReferenceIdeal.Read.val_main_v11 (F := Ideal) x := rfl

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the index result at the relation-major concatenation of the index array and the float
    result at the flattened scaled array of the weight table and the edge values. -/
theorem algebraic : Cert.algebraic_KernelIdeal_ReferenceIdeal := by
  intro m ρ m' ρ' _ hagree
  refine ⟨fun c => Cert.Spec.concatRel (F := Ideal) (m ((c.tc : Thread Cert.KernelIdeal.nD Cert.KernelIdeal.τ).loc Cert.KernelIdeal.main_arg1)),
    fun c => shapeCast Cert.KernelIdeal.S4x16000000
      (Cert.Spec.scaled (F := Ideal)
        (Cert.KernelIdeal.Boundary.weights (F := Ideal) (m ((c.tc : Thread Cert.KernelIdeal.nD Cert.KernelIdeal.τ).loc Cert.KernelIdeal.main_arg0)))
        (m ((c.tc : Thread Cert.KernelIdeal.nD Cert.KernelIdeal.τ).loc Cert.KernelIdeal.main_arg2)))
      Cert.KernelIdeal.Facts₀.shapeCasts_S4x8x2000000_S4x16000000, ?_, ?_⟩
  · exact (θ_run Cert.KernelIdeal.defs _ _).mono
      (fun r h c => ⟨(h c).1.trans (Cert.KernelIdeal.Boundary.result_idx m ρ c),
        (h c).2.1.trans (Cert.KernelIdeal.Boundary.result_vals m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.Read.val_main_v19_eq _).trans ((Cert.ReferenceIdeal.RefValue.idx_eq _).trans ?_)
      rw [(hagree c).2.1]
    · refine (Cert.ReferenceIdeal.Read.val_main_v17_eq _ _).trans ((Cert.ReferenceIdeal.RefValue.vals_eq _ _).trans ?_)
      rw [(hagree c).1, (hagree c).2.2, ← weights_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
